-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S2048x2048 : Shape := ⟨2, ![2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) (main_arg3 : IVec S2048x2048 1) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S2048x2048 : Shape := ⟨2, ![2048, 2048]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S4x8x2048x2048 : Shape := ⟨4, ![4, 8, 2048, 2048]⟩

abbrev nBuf : Space → Nat
  | .hbm => 11
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S2048x2048, .i1⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x64, .f32⟩
  | .hbm, ⟨8, _⟩ => ⟨S32x2048x2048, .f32⟩
  | .hbm, ⟨9, _⟩ => ⟨S4x8x2048x64, .f32⟩
  | .hbm, ⟨10, _⟩ => ⟨S4x8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | .local _ .vmem, ⟨10, _⟩ => ⟨S2048x64, .bf16⟩
  | .local _ .vmem, ⟨11, _⟩ => ⟨S2048x64, .bf16⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x8x2048x64_S32x2048x64 : S4x8x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S4x8x2048x64 : S32x2048x64.ShapeCasts S4x8x2048x64
  shapeCasts_S32x2048x2048_S4x8x2048x2048 : S32x2048x2048.ShapeCasts S4x8x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S2048x2048 : Shape := ⟨2, ![2048, 2048]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S2048x2048, .i1⟩
  | .hbm, ⟨4, _⟩ => ⟨S4x8x2048x2048, .f32⟩
  | .hbm, ⟨5, _⟩ => ⟨S_, .f32⟩
  | .hbm, ⟨6, _⟩ => ⟨S4x8x2048x2048, .f32⟩
  | .hbm, ⟨7, _⟩ => ⟨S4x8x2048x2048, .f32⟩
  | .hbm, ⟨8, _⟩ => ⟨S_, .f32⟩
  | .hbm, ⟨9, _⟩ => ⟨S4x8x2048, .f32⟩
  | .hbm, ⟨10, _⟩ => ⟨S_, .f32⟩
  | .hbm, ⟨11, _⟩ => ⟨S4x8x2048, .f32⟩
  | .hbm, ⟨12, _⟩ => ⟨S4x8x2048, .f32⟩
  | .hbm, ⟨13, _⟩ => ⟨S4x8x2048x1, .f32⟩
  | .hbm, ⟨14, _⟩ => ⟨S4x8x2048x2048, .f32⟩
  | .hbm, ⟨15, _⟩ => ⟨S4x8x2048x2048, .f32⟩
  | .hbm, ⟨16, _⟩ => ⟨S4x8x2048x2048, .f32⟩
  | .hbm, ⟨17, _⟩ => ⟨S_, .f32⟩
  | .hbm, ⟨18, _⟩ => ⟨S4x8x2048, .f32⟩
  | .hbm, ⟨19, _⟩ => ⟨S4x8x2048x1, .f32⟩
  | .hbm, ⟨20, _⟩ => ⟨S4x8x2048x2048, .f32⟩
  | .hbm, ⟨21, _⟩ => ⟨S4x8x2048x2048, .f32⟩
  | .hbm, ⟨22, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Pieces.lean ====
/-
  What one grid point of the attention kernel leaves behind, as values.

  The grid is (batch-head, query tile).  At the FIRST query tile of a batch-head the body copies the key block and
  the value block (narrowed to bf16) into two scratch buffers; at the other three tiles it leaves the scratch
  alone.  At every tile it then reads the scratch back and stores two results: the attention weights of the tile's
  512 query rows against all 2048 keys, and their context against the values.

  So there are two cases, and in each the stores are single covering stores of a pure term of the loads:
    first tile:   keys := narrow(key block), values := narrow(value block),
                  weights := W(query block, narrow(key block)), context := C(query block, narrow(key block), narrow(value block));
    other tiles:  keys, values unchanged (xs0, xs1),
                  weights := W(query block, xs0), context := C(query block, xs0, xs1).
  In the first case the weights and the context read the scratch AFTER the copy in the same run, so they see the
  copy, not what the scratch held before.
-/
import proofs.«404337_j90967407329826_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AttnValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the key scratch ends holding the narrowed key block. -/
theorem keys_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x512x64 .f32) (x1 : Vec F S1x2048x64 .f32) (x2 : Vec F S1x2048x64 .f32) :
    sout0_A_0 c i arg2 harg2 arg3 harg3 arg4 harg4 arg5 harg5 arg6 harg6 arg7 harg7 arg8 harg8 hc0 x0 x1 x2 = k0_pay1 x1 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg3.read_unread, View.ld_unit_zero (S := S1x2048x64) hz3]

/-- First tile: the value scratch ends holding the narrowed value block. -/
theorem vals_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x512x64 .f32) (x1 : Vec F S1x2048x64 .f32) (x2 : Vec F S1x2048x64 .f32) :
    sout0_A_1 c i arg2 harg2 arg3 harg3 arg4 harg4 arg5 harg5 arg6 harg6 arg7 harg7 arg8 harg8 hc0 x0 x1 x2 = k0_pay2 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg4.read_unread, View.ld_unit_zero (S := S1x2048x64) hz3]

/-- First tile: the weights are computed from the query block and the keys just copied. -/
theorem attn_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x512x64 .f32) (x1 : Vec F S1x2048x64 .f32) (x2 : Vec F S1x2048x64 .f32) :
    out0_A_4 c i arg2 harg2 arg3 harg3 arg4 harg4 arg5 harg5 arg6 harg6 arg7 harg7 arg8 harg8 hc0 x0 x1 x2 = k0_pay4 x0 (k0_pay1 x1) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_eq_ld, harg2.read_unread, harg3.read_unread, View.readCov_unit_zero (S := S2048x64) _ hz2,
    View.ld_unit_zero (S := S1x512x64) hz3, View.ld_unit_zero (S := S1x2048x64) hz3]

/-- First tile: the context is computed from the query block and the keys and values just copied. -/
theorem ctx_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x512x64 .f32) (x1 : Vec F S1x2048x64 .f32) (x2 : Vec F S1x2048x64 .f32) :
    out0_A_3 c i arg2 harg2 arg3 harg3 arg4 harg4 arg5 harg5 arg6 harg6 arg7 harg7 arg8 harg8 hc0 x0 x1 x2 = k0_pay5 x0 (k0_pay1 x1) (k0_pay2 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_eq_ld, harg2.read_unread, harg3.read_unread, harg4.read_unread,
    View.readCov_unit_zero (S := S2048x64) _ hz2,
    View.ld_unit_zero (S := S1x512x64) hz3, View.ld_unit_zero (S := S1x2048x64) hz3]

/-- Other tiles: the weights are computed from the query block and the keys the scratch carries. -/
theorem attn_B (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (x0 : Vec F S1x512x64 .f32) (x1 : Vec F S1x2048x64 .f32) (x2 : Vec F S1x2048x64 .f32) (xs0 : Vec F S2048x64 .bf16) (xs1 : Vec F S2048x64 .bf16) :
    out0_B_4 c i arg2 harg2 arg3 harg3 arg4 harg4 arg5 harg5 arg6 harg6 arg7 harg7 arg8 harg8 hc0 x0 x1 x2 xs0 xs1 = k0_pay4 x0 xs0 := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero hz3]
  simp only [View.readAt_eq_ld, harg2.read_unread, harg7.read_unread,
    View.ld_unit_zero (S := S1x512x64) hz3, View.ld_unit_zero (S := S2048x64) hz2]

/-- Other tiles: the context is computed from the query block and the keys and values the scratch carries. -/
theorem ctx_B (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (x0 : Vec F S1x512x64 .f32) (x1 : Vec F S1x2048x64 .f32) (x2 : Vec F S1x2048x64 .f32) (xs0 : Vec F S2048x64 .bf16) (xs1 : Vec F S2048x64 .bf16) :
    out0_B_3 c i arg2 harg2 arg3 harg3 arg4 harg4 arg5 harg5 arg6 harg6 arg7 harg7 arg8 harg8 hc0 x0 x1 x2 xs0 xs1 = k0_pay5 x0 xs0 xs1 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero hz3]
  simp only [View.readAt_eq_ld, harg2.read_unread, harg7.read_unread, harg8.read_unread,
    View.ld_unit_zero (S := S1x512x64) hz3, View.ld_unit_zero (S := S2048x64) hz2]

end Cert.KernelIdeal.AttnValue

end
-- ==== Proof.Carried.lean ====
/-
  What the scratch carries from point to point, and what every point leaves in its two outputs.

  The 128 grid points are numbered batch-head major: point `t` is batch-head `t / 4`, query tile `t % 4`.  The
  query window and both output windows move with the point (block `(t / 4, t % 4, 0)`); the key and the value
  windows depend on the batch-head only (block `(t / 4, 0, 0)`).  So within a batch-head the key block and the value
  block do not change from one point to the next.

  The scratch is filled at tile 0 with the (narrowed) key and value blocks and kept at tiles 1, 2, 3.  By induction
  on the point, after EVERY point the scratch holds the narrowed key and value blocks OF THAT POINT: at tile 0 because
  it was just filled, at the other tiles because it was kept and the blocks are those of the point before.  Hence
  every point leaves, in its outputs, the weights and the context computed from its own three input blocks.
-/
import proofs.«404337_j90967407329826_3_alg».proof.Proof.Gen.KernelIdeal.Frame
import proofs.«404337_j90967407329826_3_alg».proof.Proof.Pieces
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Idealize.ShloMosaic.ValueIdx

variable {F : FTy → Type} [FloatOps F]
variable (m : (ℓ : Loc nD τ sig) → Buf (Elt F) ℓ)

/-- The query block, the key block and the value block of point `t`, at their literal types. -/
abbrev qblk (c : Dev nD) (t : Fin cfg0.N) : Vec F S1x512x64 .f32 := iblk m c 0 t
abbrev kblk (c : Dev nD) (t : Fin cfg0.N) : Vec F S1x2048x64 .f32 := iblk m c 1 t
abbrev vblk (c : Dev nD) (t : Fin cfg0.N) : Vec F S1x2048x64 .f32 := iblk m c 2 t

/-- The arrays the region finds: queries, keys, values, each `[32, 2048, 64]`. -/
abbrev qarr (c : Dev nD) : Vec F S32x2048x64 .f32 := V m c main_v0
abbrev karr (c : Dev nD) : Vec F S32x2048x64 .f32 := V m c main_v1
abbrev varr (c : Dev nD) : Vec F S32x2048x64 .f32 := V m c main_v2

/-- The windows' block indices, decided over the grid: batch-head `t / 4`, and tile `t % 4` for the windows that move
    with the tile. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0) :=
  (by decide +kernel : ∀ t : Fin grid0.N, _)

/-- The query block of point `t` holds rows `512 (t % 4) …` of batch-head `t / 4`. -/
theorem qblk_apply (c : Dev nD) (t : Fin cfg0.N) (bh : Fin 32) (hbh : bh.val = t.val / 4) (row : Fin 2048)
    (u : Fin 1) (r : Fin 512) (d : Fin 64) (hrow : row.val = t.val % 4 * 512 + r.val) :
    qblk m c t (ix3 u r d) = qarr m c (ix3 bh row d) := by
  obtain ⟨⟨e0, e1, e2⟩, -⟩ := idx_facts t
  unfold qblk iblk
  rw [View.read_apply]
  show V m c main_v0 _ = V m c main_v0 _
  refine congrArg (V m c main_v0) (funext fun a => Fin.ext ?_)
  have hu : u.val = 0 := by omega
  match a with
  | ⟨0, _⟩ => show win0_0.index t (0 : Fin 3) * 1 + 1 * u.val = bh.val; omega
  | ⟨1, _⟩ => show win0_0.index t (1 : Fin 3) * 512 + 1 * r.val = row.val; omega
  | ⟨2, _⟩ => show win0_0.index t (2 : Fin 3) * 64 + 1 * d.val = d.val; omega

/-- The key block of point `t` holds all the keys of batch-head `t / 4`. -/
theorem kblk_apply (c : Dev nD) (t : Fin cfg0.N) (bh : Fin 32) (hbh : bh.val = t.val / 4)
    (u : Fin 1) (j : Fin 2048) (d : Fin 64) :
    kblk m c t (ix3 u j d) = karr m c (ix3 bh j d) := by
  obtain ⟨-, ⟨e0, e1, e2⟩, -⟩ := idx_facts t
  unfold kblk iblk
  rw [View.read_apply]
  show V m c main_v1 _ = V m c main_v1 _
  refine congrArg (V m c main_v1) (funext fun a => Fin.ext ?_)
  have hu : u.val = 0 := by omega
  match a with
  | ⟨0, _⟩ => show win0_1.index t (0 : Fin 3) * 1 + 1 * u.val = bh.val; omega
  | ⟨1, _⟩ => show win0_1.index t (1 : Fin 3) * 2048 + 1 * j.val = j.val; omega
  | ⟨2, _⟩ => show win0_1.index t (2 : Fin 3) * 64 + 1 * d.val = d.val; omega

/-- The value block of point `t` holds all the values of batch-head `t / 4`. -/
theorem vblk_apply (c : Dev nD) (t : Fin cfg0.N) (bh : Fin 32) (hbh : bh.val = t.val / 4)
    (u : Fin 1) (j : Fin 2048) (d : Fin 64) :
    vblk m c t (ix3 u j d) = varr m c (ix3 bh j d) := by
  obtain ⟨-, -, ⟨e0, e1, e2⟩, -⟩ := idx_facts t
  unfold vblk iblk
  rw [View.read_apply]
  show V m c main_v2 _ = V m c main_v2 _
  refine congrArg (V m c main_v2) (funext fun a => Fin.ext ?_)
  have hu : u.val = 0 := by omega
  match a with
  | ⟨0, _⟩ => show win0_2.index t (0 : Fin 3) * 1 + 1 * u.val = bh.val; omega
  | ⟨1, _⟩ => show win0_2.index t (1 : Fin 3) * 2048 + 1 * j.val = j.val; omega
  | ⟨2, _⟩ => show win0_2.index t (2 : Fin 3) * 64 + 1 * d.val = d.val; omega

/-- Within a batch-head the key block does not move: at a tile other than the first it is the block of the point before. -/
theorem kblk_prev (c : Dev nD) (t : Fin cfg0.N) (h0 : ¬t.val % 4 = 0) (hp : t.val - 1 < cfg0.N) :
    kblk m c ⟨t.val - 1, hp⟩ = kblk m c t := by
  have hN : cfg0.N = 128 := N_0
  have ht : t.val < 128 := lt_of_lt_of_eq t.isLt hN
  funext y
  obtain ⟨u, j, d, rfl⟩ : ∃ (u : Fin 1) (j : Fin 2048) (d : Fin 64), y = ix3 u j d := ⟨y 0, y 1, y 2, eq_ix3 y⟩
  rw [kblk_apply m c ⟨t.val - 1, hp⟩ ⟨t.val / 4, by omega⟩ (by show t.val / 4 = (t.val - 1) / 4; omega) u j d,
    kblk_apply m c t ⟨t.val / 4, by omega⟩ rfl u j d]

/-- Nor does the value block. -/
theorem vblk_prev (c : Dev nD) (t : Fin cfg0.N) (h0 : ¬t.val % 4 = 0) (hp : t.val - 1 < cfg0.N) :
    vblk m c ⟨t.val - 1, hp⟩ = vblk m c t := by
  have hN : cfg0.N = 128 := N_0
  have ht : t.val < 128 := lt_of_lt_of_eq t.isLt hN
  funext y
  obtain ⟨u, j, d, rfl⟩ : ∃ (u : Fin 1) (j : Fin 2048) (d : Fin 64), y = ix3 u j d := ⟨y 0, y 1, y 2, eq_ix3 y⟩
  rw [vblk_apply m c ⟨t.val - 1, hp⟩ ⟨t.val / 4, by omega⟩ (by show t.val / 4 = (t.val - 1) / 4; omega) u j d,
    vblk_apply m c t ⟨t.val / 4, by omega⟩ rfl u j d]

/-- **The carried scratch.**  After every point the key scratch holds that point's narrowed key block and the value
    scratch its narrowed value block. -/
theorem carried (c : Dev nD) : ∀ (n : ℕ) (h : n < cfg0.N),
    (outsAt0 m c n h).2.2.1 = k0_pay1 (kblk m c ⟨n, h⟩) ∧ (outsAt0 m c n h).2.2.2 = k0_pay2 (vblk m c ⟨n, h⟩)
  | 0, h => by
    let t : Fin cfg0.N := ⟨0, h⟩
    have h0 : t.val % 4 = 0 := rfl
    rw [outsAt0_A m c t h0]
    dsimp only
    exact ⟨keys_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (qblk m c t) (kblk m c t) (vblk m c t),
      vals_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (qblk m c t) (kblk m c t) (vblk m c t)⟩
  | n + 1, h => by
    let t : Fin cfg0.N := ⟨n + 1, h⟩
    by_cases h0 : t.val % 4 = 0
    · rw [outsAt0_A m c t h0]
      dsimp only
      exact ⟨keys_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (qblk m c t) (kblk m c t) (vblk m c t),
        vals_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (qblk m c t) (kblk m c t) (vblk m c t)⟩
    · have ih := carried c n (Nat.lt_of_succ_lt h)
      rw [outsAt0_B m c t h0]
      dsimp only
      unfold sout0_B_0 sout0_B_1
      rw [← kblk_prev m c t h0 (Nat.lt_of_succ_lt h), ← vblk_prev m c t h0 (Nat.lt_of_succ_lt h)]
      exact ih

/-- **What every point leaves**: the context and the weights computed from the point's own query block and its own
    narrowed key and value blocks. -/
theorem leaves (c : Dev nD) (t : Fin cfg0.N) :
    (outsAt0 m c t.val t.isLt).1 = k0_pay5 (qblk m c t) (k0_pay1 (kblk m c t)) (k0_pay2 (vblk m c t))
    ∧ (outsAt0 m c t.val t.isLt).2.1 = k0_pay4 (qblk m c t) (k0_pay1 (kblk m c t)) := by
  by_cases h0 : t.val % 4 = 0
  · rw [outsAt0_A m c t h0]
    dsimp only
    exact ⟨ctx_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (qblk m c t) (kblk m c t) (vblk m c t),
      attn_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (qblk m c t) (kblk m c t) (vblk m c t)⟩
  · have hp : t.val - 1 < cfg0.N := Nat.lt_of_le_of_lt (Nat.sub_le _ _) t.isLt
    obtain ⟨ck, cv⟩ := carried m c (t.val - 1) hp
    rw [kblk_prev m c t h0 hp] at ck
    rw [vblk_prev m c t h0 hp] at cv
    rw [outsAt0_B m c t h0]
    dsimp only
    rw [ck, cv]
    exact ⟨ctx_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (qblk m c t) (kblk m c t) (vblk m c t) (k0_pay1 (kblk m c t)) (k0_pay2 (vblk m c t)),
      attn_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (qblk m c t) (kblk m c t) (vblk m c t) (k0_pay1 (kblk m c t)) (k0_pay2 (vblk m c t))⟩

end Cert.KernelIdeal.AttnValue

end
-- ==== Proof.LibOnlineSoftmax.lean ====
/-
  The online softmax: one pass over the tiles of a row keeps a running maximum `m` and a running sum
  `l = ∑ exp (x - m)` over the entries seen so far, rescaling the sum by `exp (m - m')` whenever the maximum moves
  to `m'`.

  Over the reals nothing depends on `m` being the maximum: `exp (m - m') * exp (x - m) = exp (x - m')`
  (`exp_shift_mul`), so the recurrence `l' = exp (m - m') * l + ∑_{tile} exp (x - m')` keeps the invariant
  `l = ∑_{seen} exp (x - m)` for ANY next value `m'` (`online_step_real`), and a softmax normalised at any shift is
  the softmax normalised at any other (`softmax_shift`); the sums are positive (`sum_exp_pos`).  What the running
  maximum buys is only that the numbers stay small, which is invisible here.

  The programs compute in the extended reals.  On FINITE entries (coerced reals) every operation involved returns
  a coerced real: the coercion commutes with finite sums (`coe_finset_sum`), with `max` and with the maximum of a
  nonempty family (`sup_coe`, `fold_max_bot_coe`), `exp` of a difference of reals is the real exponential
  (`ideal_exp_sub_coe`), and a quotient by a nonzero real is the real quotient (`ideal_div_coe`).  `online_step`
  is the induction step in the extended reals, stated so that "the valid entries of this tile" may be ANY finset
  `t` disjoint from the entries seen and the tile's sum ANY term proved equal to `∑_{t} exp (x - m')`;
  `online_init` starts it at a finite stand-in for `-∞` and the zero sum; `softmax_shift_ereal` is the conclusion:
  `exp (x - m) / l` with `l = ∑ exp (x - m)` is `exp (x - M) / ∑ exp (x - M)` for every real `M`, the true maximum
  among them.
-/
import Mathlib.Analysis.SpecialFunctions.Exp
import Mathlib.Data.EReal.Inv
import Idealize.ShloMosaic.PureOps.Ideal

open scoped BigOperators
open Finset

namespace Cert.LibOnlineSoftmax

open Idealize.ShloMosaic

variable {ι : Type*}

/-! ## Over the reals -/

/-- Rescaling an exponential from the shift `m` to the shift `m'`. -/
theorem exp_shift_mul (x m m' : ℝ) : Real.exp (m - m') * Real.exp (x - m) = Real.exp (x - m') := by
  rw [← Real.exp_add]; congr 1; ring

/-- **The step of the recurrence.**  If `l` is the sum of `exp (x - m)` over the entries `S` seen so far, and the
    tile brings the entries `t` (disjoint from `S`) with sum `s` of `exp (x - m')`, then
    `exp (m - m') * l + s` is the sum of `exp (x - m')` over `S ∪ t` — for any `m'`. -/
theorem online_step_real [DecidableEq ι] (x : ι → ℝ) (S t : Finset ι) (hd : Disjoint S t) (m m' l s : ℝ)
    (hl : l = ∑ p ∈ S, Real.exp (x p - m)) (hs : s = ∑ p ∈ t, Real.exp (x p - m')) :
    Real.exp (m - m') * l + s = ∑ p ∈ S ∪ t, Real.exp (x p - m') := by
  rw [hl, hs, Finset.mul_sum, Finset.sum_union hd]
  congr 1
  exact Finset.sum_congr rfl (fun p _ => exp_shift_mul (x p) m m')

/-- A sum of exponentials over a nonempty set is positive. -/
theorem sum_exp_pos (x : ι → ℝ) (s : Finset ι) (hs : s.Nonempty) (m : ℝ) :
    0 < ∑ q ∈ s, Real.exp (x q - m) :=
  Finset.sum_pos (fun q _ => Real.exp_pos _) hs

/-- **Shift invariance of the softmax**: normalising at `m` or at `M` gives the same quotient. -/
theorem softmax_shift (x : ι → ℝ) (s : Finset ι) (m M : ℝ) (p : ι) :
    Real.exp (x p - m) / ∑ q ∈ s, Real.exp (x q - m) = Real.exp (x p - M) / ∑ q ∈ s, Real.exp (x q - M) := by
  have h : ∀ q, Real.exp (x q - m) = Real.exp (M - m) * Real.exp (x q - M) := fun q =>
    (exp_shift_mul (x q) M m).symm
  rw [h p, Finset.sum_congr rfl (fun q _ => h q), ← Finset.mul_sum,
    mul_div_mul_left _ _ (Real.exp_pos (M - m)).ne']

/-! ## The coercion to the extended reals -/

/-- The coercion commutes with finite sums. -/
theorem coe_finset_sum (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion commutes with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum from `⊥` of a nonempty family of reals is the coercion of its real maximum. -/
theorem sup_coe (s : Finset ι) (hs : s.Nonempty) (f : ι → ℝ) :
    s.sup (fun i => (f i : EReal)) = ((s.sup' hs f : ℝ) : EReal) := by
  apply le_antisymm
  · exact Finset.sup_le (fun i hi => EReal.coe_le_coe_iff.mpr (Finset.le_sup' f hi))
  · obtain ⟨i, hi, h⟩ := Finset.exists_mem_eq_sup' hs f
    rw [h]; exact Finset.le_sup (f := fun i => (f i : EReal)) hi

/-- The same as a fold of `max` from `⊥`, the form a reduction over a set of lanes takes. -/
theorem fold_max_bot_coe (s : Finset ι) (hs : s.Nonempty) (f : ι → ℝ) :
    s.fold max ⊥ (fun i => (f i : EReal)) = ((s.sup' hs f : ℝ) : EReal) :=
  sup_coe s hs f

/-- So such a maximum is finite: it is SOME real. -/
theorem exists_fold_max_bot_coe (s : Finset ι) (hs : s.Nonempty) (f : ι → ℝ) :
    ∃ c : ℝ, s.fold max ⊥ (fun i => (f i : EReal)) = (c : EReal) :=
  ⟨_, fold_max_bot_coe s hs f⟩

/-- `exp` of a difference of reals, in the extended reals, is the real exponential. -/
theorem ideal_exp_sub_coe (a b : ℝ) : Ideal.exp ((a : EReal) - (b : EReal)) = ((Real.exp (a - b) : ℝ) : EReal) := by
  rw [← EReal.coe_sub, Ideal.exp_coe]

/-- A quotient by a nonzero real, in the extended reals, is the real quotient. -/
theorem ideal_div_coe (a b : ℝ) (hb : b ≠ 0) : Ideal.div (a : EReal) (b : EReal) = ((a / b : ℝ) : EReal) := by
  rw [Ideal.div_coe hb, ← EReal.coe_mul, mul_one_div]

/-- A sum of `exp (x - m)` in the extended reals is the coercion of the real sum. -/
theorem sum_ideal_exp_sub_coe (x : ι → ℝ) (s : Finset ι) (m : ℝ) :
    ∑ q ∈ s, Ideal.exp ((x q : EReal) - (m : EReal)) = ((∑ q ∈ s, Real.exp (x q - m) : ℝ) : EReal) := by
  rw [coe_finset_sum]; exact Finset.sum_congr rfl (fun q _ => ideal_exp_sub_coe (x q) m)

/-! ## The recurrence in the extended reals -/

/-- **The start**: a finite stand-in `NEG` for `-∞` as the maximum, zero as the sum, nothing seen. -/
theorem online_init (x : ι → ℝ) (NEG : ℝ) :
    ∃ mr : ℝ, ((NEG : ℝ) : EReal) = (mr : EReal) ∧ (0 : EReal) = ((∑ p ∈ (∅ : Finset ι), Real.exp (x p - mr) : ℝ) : EReal) :=
  ⟨NEG, rfl, by simp⟩

/-- **The step in the extended reals.**  `m`, `l` are the running maximum and sum before the tile, with the
    invariant: `m` is a real and `l` is the sum of `exp (x - m)` over the entries `S` seen.  The tile's maximum `c`
    is a real (whatever it is the maximum of), the new maximum is `max m c`, and the tile's sum `s` is the sum of
    `exp (x - max m c)` over the tile's valid entries `t`.  Then the invariant holds of `max m c`,
    `exp (m - max m c) * l + s` and `S ∪ t`. -/
theorem online_step [DecidableEq ι] (x : ι → ℝ) (S t : Finset ι) (hd : Disjoint S t) (m l c s : EReal)
    (hinv : ∃ mr : ℝ, m = (mr : EReal) ∧ l = ((∑ p ∈ S, Real.exp (x p - mr) : ℝ) : EReal))
    (hc : ∃ cr : ℝ, c = (cr : EReal))
    (hs : ∀ mr' : ℝ, max m c = (mr' : EReal) → s = ((∑ p ∈ t, Real.exp (x p - mr') : ℝ) : EReal)) :
    ∃ mr' : ℝ, max m c = (mr' : EReal) ∧
      Ideal.exp (m - max m c) * l + s = ((∑ p ∈ S ∪ t, Real.exp (x p - mr') : ℝ) : EReal) := by
  obtain ⟨mr, rfl, rfl⟩ := hinv
  obtain ⟨cr, rfl⟩ := hc
  have hm : max (mr : EReal) (cr : EReal) = ((max mr cr : ℝ) : EReal) := (coe_max mr cr).symm
  refine ⟨max mr cr, hm, ?_⟩
  rw [hs _ hm, hm, ideal_exp_sub_coe, ← EReal.coe_mul, ← EReal.coe_add,
    online_step_real x S t hd mr (max mr cr) _ _ rfl rfl]

/-- The running maximum never falls below its start: with `NEG ≤ m`, joining `NEG` to a tile's maximum (the masked
    lanes of an overhanging tile hold `NEG`) does not change the new maximum. -/
theorem max_max_of_le {α : Type*} [LinearOrder α] (m c NEG : α) (h : NEG ≤ m) : max m (max c NEG) = max m c := by
  rw [← max_assoc, max_comm m c, max_assoc, max_eq_left h]

/-! ## The conclusion -/

/-- **The softmax from the statistics.**  With `l = ∑ exp (x - m)` over a nonempty set at ANY real shift `m`,
    `exp (x p - m) / l` in the extended reals is `exp (x p - M) / ∑ exp (x - M)` at any other real shift `M`. -/
theorem softmax_shift_ereal (x : ι → ℝ) (s : Finset ι) (hs : s.Nonempty) (m M : ℝ) (p : ι) :
    Ideal.div (Ideal.exp ((x p : EReal) - (m : EReal))) ((∑ q ∈ s, Real.exp (x q - m) : ℝ) : EReal)
      = Ideal.div (Ideal.exp ((x p : EReal) - (M : EReal))) (∑ q ∈ s, Ideal.exp ((x q : EReal) - (M : EReal))) := by
  rw [sum_ideal_exp_sub_coe, ideal_exp_sub_coe, ideal_exp_sub_coe,
    ideal_div_coe _ _ (sum_exp_pos x s hs m).ne', ideal_div_coe _ _ (sum_exp_pos x s hs M).ne',
    softmax_shift x s m M p]

/-- The same with the reference's shift spelled as it computes it: the maximum from `⊥` of the (finite) entries. -/
theorem softmax_shift_sup (x : ι → ℝ) (s : Finset ι) (hs : s.Nonempty) (m : ℝ) (p : ι) :
    Ideal.div (Ideal.exp ((x p : EReal) - (m : EReal))) ((∑ q ∈ s, Real.exp (x q - m) : ℝ) : EReal)
      = Ideal.div (Ideal.exp ((x p : EReal) - s.sup (fun q => (x q : EReal))))
          (∑ q ∈ s, Ideal.exp ((x q : EReal) - s.sup (fun q => (x q : EReal)))) := by
  rw [sup_coe s hs x]; exact softmax_shift_ereal x s hs m _ p

end Cert.LibOnlineSoftmax
-- ==== Proof.AttnLaw.lean ====
/-
  Scaled dot-product attention over the extended reals, written the two ways the two programs compute it, and
  the law that joins them.

  For one query row `i` and key row `j` of one batch-head:

  * one program scales the query first and normalises by a reciprocal:
      `score = ∑_d (Q i d · c) · K j d`,  `attn i j = exp (score i j) · (1 / ∑_j' exp (score i j'))`;
  * the other scales the product, shifts by the row maximum, and divides:
      `score' = (∑_d Q i d · K j d) · c`,  `M i = max (-∞) (max_j' score' i j')`,
      `attn' i j = exp (score' i j - M i) / (0 + ∑_j' exp (score' i j' - M i))`.

  Both then take the context `∑_j attn i j · V j d`.

  On FINITE entries of `Q` and `K` the two are one function: `c` is the real `1/8`, so both scores are the
  same coerced real (a factor moves across a finite sum of reals); the row maximum of reals is a real, and the
  softmax does not depend on the shift it is normalised at (`exp (s - M) / ∑ exp (s' - M) = exp s / ∑ exp s'`);
  a product with the reciprocal of a nonzero real is the quotient.  The context needs nothing of `V`: it is the
  same sum of the same products.  At an infinite entry none of this holds (`∞ - ∞`), which is why the entries are
  taken finite.
-/
import Mathlib.Analysis.SpecialFunctions.Exp
import Mathlib.Data.EReal.Inv
import Idealize.ShloMosaic.PureOps.Ideal
import Idealize.ShloMosaic.PureOps.Ideal.Laws
import Idealize.ShloMosaic.Lib.ValueIdx
import proofs.«404337_j90967407329826_3_alg».proof.Proof.LibOnlineSoftmax

open scoped BigOperators
open Finset

namespace Cert.AttnLaw

open Idealize.ShloMosaic Cert.LibOnlineSoftmax

/-! ## The four words -/

/-- The word of `1.0`. -/
theorem ofBits_one : Ideal.ofBits .f32 0x3F800000#32 = 1 := by
  simp [Ideal.ofBits, Ideal.ieee, -EReal.coe_mul]; norm_num

/-- The word of `-∞`. -/
theorem ofBits_neg_inf : Ideal.ofBits .f32 0xFF800000#32 = ⊥ := by
  simp [Ideal.ofBits, Ideal.ieee]

/-- The word of `0.125`: the scale `1 / sqrt 64`, an exact dyadic. -/
theorem ofBits_eighth : Ideal.ofBits .f32 0x3E000000#32 = ((1 / 8 : ℝ) : EReal) := by
  simp [Ideal.ofBits, Ideal.ieee, -EReal.coe_mul]; norm_num

/-! ## One row, over the reals -/

section Row

variable {N : Type*} [Fintype N] [Nonempty N]

/-- **The row law.**  For real scores `s`: the exponential times the reciprocal of the row's sum of exponentials is
    the exponential shifted by the row maximum (taken from `-∞`, twice) over the sum, from zero, of the shifted
    exponentials. -/
theorem attn_row (s : N → ℝ) (j : N) :
    Ideal.exp (s j : EReal) * Ideal.div 1 (∑ j', Ideal.exp (s j' : EReal))
      = Ideal.div (Ideal.exp ((s j : EReal) - max ⊥ ((Finset.univ : Finset N).fold max ⊥ (fun j' => (s j' : EReal)))))
          (0 + ∑ j', Ideal.exp ((s j' : EReal) - max ⊥ ((Finset.univ : Finset N).fold max ⊥ (fun j' => (s j' : EReal))))) := by
  have hne : (Finset.univ : Finset N).Nonempty := Finset.univ_nonempty
  rw [fold_max_bot_coe _ hne s, max_bot_left, zero_add, sum_ideal_exp_sub_coe, ideal_exp_sub_coe,
    ideal_div_coe _ _ (sum_exp_pos s _ hne _).ne']
  have hl : ∑ j', Ideal.exp (s j' : EReal) = ((∑ j', Real.exp (s j') : ℝ) : EReal) := by
    rw [coe_finset_sum]; rfl
  have hpos : (∑ j', Real.exp (s j')) ≠ 0 := (Finset.sum_pos (fun q _ => Real.exp_pos (s q)) hne).ne'
  rw [hl, ← EReal.coe_one, ideal_div_coe _ _ hpos, Ideal.exp_coe, ← EReal.coe_mul, mul_one_div]
  have h := softmax_shift s Finset.univ 0 (Finset.univ.sup' hne s) j
  simp only [sub_zero] at h
  rw [h]

end Row

/-! ## The scores -/

section Score

variable {D : Type*} [Fintype D]

/-- Scaling the query first: the sum of `(q · c) · k` is the coerced real `(∑ q · k) · c`. -/
theorem score_scaled_first (q k : D → ℝ) (c : ℝ) :
    ∑ d, ((q d : EReal) * (c : EReal)) * (k d : EReal) = (((∑ d, q d * k d) * c : ℝ) : EReal) := by
  rw [Finset.sum_mul, coe_finset_sum]
  refine Finset.sum_congr rfl fun d _ => ?_
  rw [← EReal.coe_mul, ← EReal.coe_mul]
  exact congrArg _ (by ring)

/-- Scaling the product: the same coerced real. -/
theorem score_scaled_last (q k : D → ℝ) (c : ℝ) :
    (∑ d, (q d : EReal) * (k d : EReal)) * (c : EReal) = (((∑ d, q d * k d) * c : ℝ) : EReal) := by
  have h : ∑ d, (q d : EReal) * (k d : EReal) = ((∑ d, q d * k d : ℝ) : EReal) := by
    rw [coe_finset_sum]; exact Finset.sum_congr rfl fun d _ => (EReal.coe_mul _ _).symm
  rw [h, ← EReal.coe_mul]

end Score

/-! ## The two attentions of one query row -/

/-- One query row: its 64 features. -/
abbrev Row : Type := Fin 64 → EReal
/-- The keys, or the values, of one batch-head: 2048 rows of 64 features. -/
abbrev Mat : Type := Fin 2048 → Fin 64 → EReal

/-- The scale both programs carry as the word `0x3E000000`. -/
noncomputable abbrev scale : EReal := Ideal.ofBits .f32 0x3E000000#32

/-- The score against key `j` with the query scaled first. -/
noncomputable def scoreK (q : Row) (K : Mat) (j : Fin 2048) : EReal :=
  ∑ d : Fin 64, (q d * scale) * K j d

/-- The attention weights normalised by the reciprocal of the row's sum. -/
noncomputable def attnK (q : Row) (K : Mat) (j : Fin 2048) : EReal :=
  Ideal.exp (scoreK q K j) * Ideal.div (Ideal.ofBits .f32 0x3F800000#32) (∑ j' : Fin 2048, Ideal.exp (scoreK q K j'))

/-- Their context. -/
noncomputable def ctxK (q : Row) (K V : Mat) (d : Fin 64) : EReal :=
  ∑ j : Fin 2048, attnK q K j * V j d

/-- The score against key `j` with the product scaled. -/
noncomputable def scoreR (q : Row) (K : Mat) (j : Fin 2048) : EReal :=
  (∑ d : Fin 64, q d * K j d) * scale

/-- The row maximum from `-∞`, joined once more with `-∞`. -/
noncomputable def rowMaxR (q : Row) (K : Mat) : EReal :=
  max (Ideal.ofBits .f32 0xFF800000#32)
    ((Finset.univ : Finset (Fin 2048)).fold max (Ideal.ofBits .f32 0xFF800000#32) (fun j' => scoreR q K j'))

/-- The shifted exponential. -/
noncomputable def expR (q : Row) (K : Mat) (j : Fin 2048) : EReal :=
  Ideal.exp (scoreR q K j - rowMaxR q K)

/-- The attention weights as a quotient by the row's sum from zero. -/
noncomputable def attnR (q : Row) (K : Mat) (j : Fin 2048) : EReal :=
  Ideal.div (expR q K j) (Ideal.ofBits .f32 0x00000000#32 + ∑ j' : Fin 2048, expR q K j')

/-- Their context. -/
noncomputable def ctxR (q : Row) (K V : Mat) (d : Fin 64) : EReal :=
  ∑ j : Fin 2048, attnR q K j * V j d

/-- **The two attentions agree on a finite query row and finite keys.** -/
theorem attn_eq (q : Row) (K : Mat) (hq : ∀ d, ∃ r : ℝ, q d = (r : EReal))
    (hK : ∀ j d, ∃ r : ℝ, K j d = (r : EReal)) (j : Fin 2048) :
    attnK q K j = attnR q K j := by
  choose qr hqr using hq
  choose kr hkr using hK
  have hsK : ∀ j', scoreK q K j' = (((∑ d, qr d * kr j' d) * (1 / 8) : ℝ) : EReal) := fun j' => by
    unfold scoreK scale
    rw [ofBits_eighth]
    simp only [hqr, hkr]
    exact score_scaled_first _ _ _
  have hsR : ∀ j', scoreR q K j' = (((∑ d, qr d * kr j' d) * (1 / 8) : ℝ) : EReal) := fun j' => by
    unfold scoreR scale
    rw [ofBits_eighth]
    simp only [hqr, hkr]
    exact score_scaled_last _ _ _
  unfold attnK attnR expR rowMaxR
  simp only [hsK, hsR, ofBits_one, ofBits_neg_inf, Ideal.ofBits_zero_f32]
  exact attn_row (fun j' => (∑ d, qr d * kr j' d) * (1 / 8)) j

/-- **So do the contexts**, whatever the values are. -/
theorem ctx_eq (q : Row) (K V : Mat) (hq : ∀ d, ∃ r : ℝ, q d = (r : EReal))
    (hK : ∀ j d, ∃ r : ℝ, K j d = (r : EReal)) (d : Fin 64) :
    ctxK q K V d = ctxR q K V d := by
  unfold ctxK ctxR
  exact Finset.sum_congr rfl fun j _ => by rw [attn_eq q K hq hK]

/-! ## Whole arrays

The same over `[4, 8, 2048, 64]` arrays of queries, keys and values: the weights are a `[4, 8, 2048, 2048]` array, the
context a `[4, 8, 2048, 64]` one; entry `(b, h, i, ·)` is the attention of query row `(b, h, i)` against the keys and
values of batch-head `(b, h)`. -/

section Arrays

open Idealize.ShloMosaic.ValueIdx

/-- The shape of the queries, the keys, the values and the context. -/
abbrev QKV : Shape := ⟨4, ![4, 8, 2048, 64]⟩
/-- The shape of the weights. -/
abbrev W4 : Shape := ⟨4, ![4, 8, 2048, 2048]⟩

/-- Query row `(b, h, i)` of an array. -/
abbrev rowOf (x : QKV.Idx → EReal) (b : Fin 4) (h : Fin 8) (i : Fin 2048) : Row := fun d => x (ix4 b h i d)
/-- The keys, or the values, of batch-head `(b, h)`. -/
abbrev matOf (x : QKV.Idx → EReal) (b : Fin 4) (h : Fin 8) : Mat := fun j d => x (ix4 b h j d)

/-- The weights, the query scaled first and the reciprocal normalisation. -/
noncomputable def attn4K (Q K : QKV.Idx → EReal) : W4.Idx → EReal := fun i =>
  attnK (rowOf Q ⟨(i 0).val, (i 0).isLt⟩ ⟨(i 1).val, (i 1).isLt⟩ ⟨(i 2).val, (i 2).isLt⟩) (matOf K ⟨(i 0).val, (i 0).isLt⟩ ⟨(i 1).val, (i 1).isLt⟩) ⟨(i 3).val, (i 3).isLt⟩
/-- Their context. -/
noncomputable def ctx4K (Q K V : QKV.Idx → EReal) : QKV.Idx → EReal := fun i =>
  ctxK (rowOf Q ⟨(i 0).val, (i 0).isLt⟩ ⟨(i 1).val, (i 1).isLt⟩ ⟨(i 2).val, (i 2).isLt⟩) (matOf K ⟨(i 0).val, (i 0).isLt⟩ ⟨(i 1).val, (i 1).isLt⟩) (matOf V ⟨(i 0).val, (i 0).isLt⟩ ⟨(i 1).val, (i 1).isLt⟩) ⟨(i 3).val, (i 3).isLt⟩
/-- The weights, the product scaled, the shift by the row maximum and the quotient. -/
noncomputable def attn4R (Q K : QKV.Idx → EReal) : W4.Idx → EReal := fun i =>
  attnR (rowOf Q ⟨(i 0).val, (i 0).isLt⟩ ⟨(i 1).val, (i 1).isLt⟩ ⟨(i 2).val, (i 2).isLt⟩) (matOf K ⟨(i 0).val, (i 0).isLt⟩ ⟨(i 1).val, (i 1).isLt⟩) ⟨(i 3).val, (i 3).isLt⟩
/-- Their context. -/
noncomputable def ctx4R (Q K V : QKV.Idx → EReal) : QKV.Idx → EReal := fun i =>
  ctxR (rowOf Q ⟨(i 0).val, (i 0).isLt⟩ ⟨(i 1).val, (i 1).isLt⟩ ⟨(i 2).val, (i 2).isLt⟩) (matOf K ⟨(i 0).val, (i 0).isLt⟩ ⟨(i 1).val, (i 1).isLt⟩) (matOf V ⟨(i 0).val, (i 0).isLt⟩ ⟨(i 1).val, (i 1).isLt⟩) ⟨(i 3).val, (i 3).isLt⟩

theorem attn4K_apply (Q K : QKV.Idx → EReal) (b : Fin 4) (h : Fin 8) (i j : Fin 2048) :
    attn4K Q K (ix4 b h i j) = attnK (rowOf Q b h i) (matOf K b h) j := rfl
theorem ctx4K_apply (Q K V : QKV.Idx → EReal) (b : Fin 4) (h : Fin 8) (i : Fin 2048) (d : Fin 64) :
    ctx4K Q K V (ix4 b h i d) = ctxK (rowOf Q b h i) (matOf K b h) (matOf V b h) d := rfl
theorem attn4R_apply (Q K : QKV.Idx → EReal) (b : Fin 4) (h : Fin 8) (i j : Fin 2048) :
    attn4R Q K (ix4 b h i j) = attnR (rowOf Q b h i) (matOf K b h) j := rfl
theorem ctx4R_apply (Q K V : QKV.Idx → EReal) (b : Fin 4) (h : Fin 8) (i : Fin 2048) (d : Fin 64) :
    ctx4R Q K V (ix4 b h i d) = ctxR (rowOf Q b h i) (matOf K b h) (matOf V b h) d := rfl

/-- On finite queries and keys the two weight arrays are one array. -/
theorem attn4_eq (Q K : QKV.Idx → EReal) (hQ : ∀ i, ∃ r : ℝ, Q i = (r : EReal)) (hK : ∀ i, ∃ r : ℝ, K i = (r : EReal)) :
    attn4K Q K = attn4R Q K :=
  funext fun _ => attn_eq _ _ (fun _ => hQ _) (fun _ _ => hK _) _

/-- And the two context arrays are one array. -/
theorem ctx4_eq (Q K V : QKV.Idx → EReal) (hQ : ∀ i, ∃ r : ℝ, Q i = (r : EReal)) (hK : ∀ i, ∃ r : ℝ, K i = (r : EReal)) :
    ctx4K Q K V = ctx4R Q K V :=
  funext fun _ => ctx_eq _ _ _ (fun _ => hQ _) (fun _ _ => hK _) _

end Arrays

end Cert.AttnLaw
-- ==== Proof.PayloadAt.lean ====
/-
  The body's arithmetic, read at an index over the extended reals.

  One grid point holds a query tile `x0` of 512 rows (as a [1, 512, 64] block), and the keys `xk` and values `xv`
  of its batch-head as [2048, 64] matrices (the scratch).  Narrowing to bf16 is the identity here.  Then, for row
  `r` of the tile:
    * the scores are `∑_d (x0 r d · c) · xk k d` (a product into a zero accumulator);
    * the weights are `exp (score r k) · (1 / ∑_k' exp (score r k'))`: the lane sum, kept as a column, inverted,
      and broadcast back along the row;
    * the stored weights are those, behind a leading unit axis;
    * the stored context is `∑_k weight r k · xv k d`, behind a leading unit axis.
  These are exactly the row attention and its context written with the query scaled first and the reciprocal
  normalisation.  The scratch fills are the key and value blocks with their leading unit axis dropped.
-/
import proofs.«404337_j90967407329826_3_alg».proof.Proof.Gen.KernelIdeal.Skeleton
import proofs.«404337_j90967407329826_3_alg».proof.Proof.AttnLaw
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Idealize.ShloMosaic.ValueIdx

/-! ## The two products' operand indices -/

theorem lhs_scores_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_scores_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_scores_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_scores_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

theorem lhs_ctx_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_ctx_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_ctx_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_ctx_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## Layout steps read at an index -/

/-- The lane sum of a [512, 2048] tile at row `r`: the sum over the row. -/
theorem rowsum_apply (v : FVec Ideal S512x2048 .f32) (hφ : FKind.Formats .f32)
    (hacc : (0x00000000#32 : BitVec 32) = FKind.add.neutral .f32 hφ) (r : Fin 512) :
    multiReduction .add [1] S512 v 0x00000000#32 reduces_S512x2048_S512 hφ hacc (ix1 r) = ∑ k' : Fin 2048, v (ix2 r k') := by
  refine (Ideal.multiReduction_add_single v 0x00000000#32 reduces_S512x2048_S512 hφ hacc (ix1 r)).trans ?_
  refine Finset.sum_congr rfl fun k' _ => congrArg v ?_
  exact funext fun a => Fin.ext (by match a with | ⟨0, _⟩ => rfl | ⟨1, _⟩ => rfl)

/-- A [512] vector kept as a [512, 1] column reads row `r` at `(r, 0)`. -/
theorem column_apply {α : Type} (v : S512.Idx → α) (r : Fin 512) (u : Fin 1) :
    shapeCast S512x1 v shapeCasts_S512_S512x1 (ix2 r u) = v (ix1 r) :=
  shapeCast_apply v shapeCasts_S512_S512x1 (ix2 r u) (ix1 r) (by
    have hu : u.val = 0 := by omega
    rw [Shape.rowMajor_val_one, Shape.rowMajor_val_two]
    show r.val = r.val * 1 + u.val
    omega)

/-- A [512, 1] column broadcast along the row reads `(r, k)` at `(r, 0)`. -/
theorem along_row_apply {α : Type} (v : S512x1.Idx → α) (r : Fin 512) (k : Fin 2048) :
    broadcastTo S512x2048 v broadcasts_S512x1_S512x2048 (ix2 r k) = v (ix2 r (0 : Fin 1)) :=
  broadcastTo_apply v broadcasts_S512x1_S512x2048 (ix2 r k) (ix2 r (0 : Fin 1)) (fun a => match a with
    | ⟨0, _⟩ => by show r.val = if (512 : Nat) = 1 then 0 else r.val; rw [if_neg (by decide)]
    | ⟨1, _⟩ => by show 0 = if (1 : Nat) = 1 then 0 else k.val; rw [if_pos rfl])

/-! ## The scores and the weights -/

/-- The tile's scores: the scaled query tile against the keys, into a zero accumulator. -/
noncomputable abbrev scoresV (x0 : Vec Ideal S1x512x64 .f32) (xk : FVec Ideal S2048x64 .bf16) : FVec Ideal S512x2048 .f32 :=
  matmul dot_S512x64_S2048x64_S512x2048_1_1_0_0_n_n none
    (truncf .bf16 (mulf (shapeCast S512x64 x0 shapeCasts_S1x512x64_S512x64) (broadcast S512x64 (Scalar.ofBits .f32 0x3E000000#32))) bitsLt_bf16_f32)
    xk (constant S512x2048 .f32 0x00000000#32)

/-- Row `r` against key `k`: the score with the query scaled first. -/
theorem scores_apply (x0 : Vec Ideal S1x512x64 .f32) (xk : FVec Ideal S2048x64 .bf16) (r : Fin 512) (k : Fin 2048) :
    scoresV x0 xk (ix2 r k) = Cert.AttnLaw.scoreK (fun d => x0 (ix3 (0 : Fin 1) r d)) (fun j d => xk (ix2 j d)) k := by
  unfold scoresV Cert.AttnLaw.scoreK
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r k) ((contrEquiv1 dot_S512x64_S2048x64_S512x2048_1_1_0_0_n_n 64 rfl rfl).symm d) = ix2 r d := funext fun a => Fin.ext (by
    match a with
    | ⟨0, _⟩ => exact lhs_scores_0 _ _
    | ⟨1, _⟩ => exact (lhs_scores_1 _ _).trans hk)
  have er : dot_S512x64_S2048x64_S512x2048_1_1_0_0_n_n.rhsIdx (ix2 r k) ((contrEquiv1 dot_S512x64_S2048x64_S512x2048_1_1_0_0_n_n 64 rfl rfl).symm d) = ix2 k d := funext fun a => Fin.ext (by
    match a with
    | ⟨0, _⟩ => exact rhs_scores_0 _ _
    | ⟨1, _⟩ => exact (rhs_scores_1 _ _).trans hk)
  rw [el, er]
  show (shapeCast S512x64 x0 shapeCasts_S1x512x64_S512x64 (ix2 r d) * Ideal.ofBits .f32 0x3E000000#32) * xk (ix2 k d) = _
  rw [shapeCast_1ab_ab_apply]

/-- The weights of row `r`: the exponential of the score times the reciprocal of the row's sum of exponentials. -/
theorem weights_apply (x0 : Vec Ideal S1x512x64 .f32) (xk : FVec Ideal S2048x64 .bf16) (r : Fin 512) (k : Fin 2048) :
    k0_pay3 (F := Ideal) x0 xk (ix2 r k)
      = Cert.AttnLaw.attnK (fun d => x0 (ix3 (0 : Fin 1) r d)) (fun j d => xk (ix2 j d)) k := by
  unfold k0_pay3 Cert.AttnLaw.attnK
  refine (mulf_apply _ _ _).trans ?_
  refine congrArg₂ (fun a b : EReal => a * b) ?_ ?_
  · exact congrArg Ideal.exp (scores_apply x0 xk r k)
  · refine (along_row_apply _ r k).trans ?_
    refine (divf_apply _ _ _).trans ?_
    refine congrArg (Ideal.div (Ideal.ofBits .f32 0x3F800000#32)) ?_
    refine (column_apply _ r 0).trans ?_
    refine (rowsum_apply _ (.inl rfl) rfl r).trans ?_
    exact Finset.sum_congr rfl fun j' _ => congrArg Ideal.exp (scores_apply x0 xk r j')

/-- The stored weights: the same behind a leading unit axis. -/
theorem stored_weights_apply (x0 : Vec Ideal S1x512x64 .f32) (xk : FVec Ideal S2048x64 .bf16) (u : Fin 1) (r : Fin 512) (k : Fin 2048) :
    k0_pay4 (F := Ideal) x0 xk (ix3 u r k)
      = Cert.AttnLaw.attnK (fun d => x0 (ix3 (0 : Fin 1) r d)) (fun j d => xk (ix2 j d)) k := by
  unfold k0_pay4
  refine (shapeCast_ab_1ab_apply _ shapeCasts_S512x2048_S1x512x2048 u r k).trans ?_
  exact weights_apply x0 xk r k

/-- The stored context: the weights against the values, behind a leading unit axis. -/
theorem stored_ctx_apply (x0 : Vec Ideal S1x512x64 .f32) (xk xv : FVec Ideal S2048x64 .bf16) (u : Fin 1) (r : Fin 512) (d : Fin 64) :
    k0_pay5 (F := Ideal) x0 xk xv (ix3 u r d)
      = Cert.AttnLaw.ctxK (fun d => x0 (ix3 (0 : Fin 1) r d)) (fun j d => xk (ix2 j d)) (fun j d => xv (ix2 j d)) d := by
  unfold k0_pay5 Cert.AttnLaw.ctxK
  refine (shapeCast_ab_1ab_apply _ shapeCasts_S512x64_S1x512x64 u r d).trans ?_
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact lhs_ctx_0 _ _
    | ⟨1, _⟩ => exact (lhs_ctx_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (rhs_ctx_0 _ _).trans hk
    | ⟨1, _⟩ => exact rhs_ctx_1 _ _)
  rw [el, er]
  exact congrArg (fun a : EReal => a * xv (ix2 k d)) (weights_apply x0 xk r k)

/-! ## The scratch fills -/

/-- The key scratch is filled with the key block, its leading unit axis dropped. -/
theorem keys_fill_apply (x1 : Vec Ideal S1x2048x64 .f32) (j : Fin 2048) (d : Fin 64) :
    k0_pay1 (F := Ideal) x1 (ix2 j d) = x1 (ix3 (0 : Fin 1) j d) := by
  unfold k0_pay1
  rw [shapeCast_self]
  exact shapeCast_1ab_ab_apply x1 shapeCasts_S1x2048x64_S2048x64 j d

/-- The value scratch is filled with the value block, its leading unit axis dropped. -/
theorem vals_fill_apply (x2 : Vec Ideal S1x2048x64 .f32) (j : Fin 2048) (d : Fin 64) :
    k0_pay2 (F := Ideal) x2 (ix2 j d) = x2 (ix3 (0 : Fin 1) j d) := by
  unfold k0_pay2
  rw [shapeCast_self]
  exact shapeCast_1ab_ab_apply x2 shapeCasts_S1x2048x64_S2048x64 j d

end Cert.KernelIdeal.AttnValue

end
-- ==== Proof.Final.lean ====
/-
  The kernel's two results as whole arrays of the arguments.

  Inside the region the arrays are `[32, 2048, ·]`: batch and head merged.  Point `t` writes back rows
  `512 (t % 4) … 512 (t % 4) + 511` of batch-head `t / 4` of both outputs, and what it writes there is the row
  attention of those query rows against the keys and values of that batch-head (the block reads, the carried
  scratch, the payloads read at an index).  The 128 blocks tile both outputs (row `i` of batch-head `bh` is in the
  block of point `4 bh + i / 512`), so after the run each output is ONE function of the region's input arrays.

  Around the region the host only re-lays arrays: `[4, 8, 2048, ·]` to `[32, 2048, ·]` before and back after.  Both
  keep the row-major position, `(b, h, i, d) ↦ (8 b + h, i, d)`.  So the results are the weights and the context
  arrays of the argument arrays, entry `(b, h, i, ·)` the attention of query row `(b, h, i)`.
-/
import proofs.«404337_j90967407329826_3_alg».proof.Proof.Carried
import proofs.«404337_j90967407329826_3_alg».proof.Proof.PayloadAt
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Idealize.ShloMosaic.ValueIdx
open Cert.AttnLaw (rowOf matOf)

variable (m : (ℓ : Loc nD τ sig) → Buf (Elt Ideal) ℓ) (ρ : Dev nD → PrngReg)

/-! ## Inside the region -/

/-- Query row `i` of batch-head `bh`, and the keys or values of batch-head `bh`, of a `[32, 2048, 64]` array. -/
abbrev row3 (x : S32x2048x64.Idx → EReal) (bh : Fin 32) (i : Fin 2048) : Cert.AttnLaw.Row := fun d => x (ix3 bh i d)
abbrev mat3 (x : S32x2048x64.Idx → EReal) (bh : Fin 32) : Cert.AttnLaw.Mat := fun j d => x (ix3 bh j d)

/-- The weights over the region's arrays. -/
def weights3 (c : Dev nD) : Buf (Elt Ideal) ((c : Thread nD τ).loc main_v3_1) := fun i =>
  Cert.AttnLaw.attnK (row3 (qarr m c) ⟨(i 0).val, (i 0).isLt⟩ ⟨(i 1).val, (i 1).isLt⟩) (mat3 (karr m c) ⟨(i 0).val, (i 0).isLt⟩) ⟨(i 2).val, (i 2).isLt⟩

/-- The context over the region's arrays. -/
def context3 (c : Dev nD) : Buf (Elt Ideal) ((c : Thread nD τ).loc main_v3_0) := fun i =>
  Cert.AttnLaw.ctxK (row3 (qarr m c) ⟨(i 0).val, (i 0).isLt⟩ ⟨(i 1).val, (i 1).isLt⟩) (mat3 (karr m c) ⟨(i 0).val, (i 0).isLt⟩)
    (mat3 (varr m c) ⟨(i 0).val, (i 0).isLt⟩) ⟨(i 2).val, (i 2).isLt⟩

/-- What point `t` writes back of the weights is its block of `weights3`. -/
theorem flushed_weights (c : Dev nD) (t : Fin cfg0.N) :
    (dats m 0 c).flushed 4 t = ((cfg0.win 4).blk t).view.read (Elt Ideal) (weights3 m c) := by
  show (cfg0.win 4).cut (grid0.coords t) ((dats m 0 c).after 4 t) = _
  rw [after0_4, (leaves m c t).2]
  have hN : cfg0.N = 128 := N_0
  have ht : t.val < 128 := lt_of_lt_of_eq t.isLt hN
  obtain ⟨-, -, -, -, ⟨e0, e1, e2⟩⟩ := idx_facts t
  funext y
  obtain ⟨u, r, k, rfl⟩ : ∃ (u : Fin 1) (r : Fin 512) (k : Fin 2048), y = ix3 u r k := ⟨y 0, y 1, y 2, eq_ix3 y⟩
  have hr : r.val < 512 := r.isLt
  have hu : u.val = 0 := by omega
  show k0_pay4 (F := Ideal) (qblk m c t) (k0_pay1 (kblk m c t)) (ix3 u r k)
    = weights3 m c (((cfg0.win 4).blk t).view.emb (ix3 u r k))
  refine (stored_weights_apply (qblk m c t) (k0_pay1 (kblk m c t)) u r k).trans ?_
  have hemb : ((cfg0.win 4).blk t).view.emb (ix3 u r k)
      = ix3 (⟨t.val / 4, by omega⟩ : Fin 32) (⟨t.val % 4 * 512 + r.val, by omega⟩ : Fin 2048) k := funext fun a => Fin.ext (by
    match a with
    | ⟨0, _⟩ => show win0_4.index t (0 : Fin 3) * 1 + 1 * u.val = t.val / 4; omega
    | ⟨1, _⟩ => show win0_4.index t (1 : Fin 3) * 512 + 1 * r.val = t.val % 4 * 512 + r.val; omega
    | ⟨2, _⟩ => show win0_4.index t (2 : Fin 3) * 2048 + 1 * k.val = k.val; omega)
  rw [hemb]
  show _ = Cert.AttnLaw.attnK (row3 (qarr m c) ⟨t.val / 4, _⟩ ⟨t.val % 4 * 512 + r.val, _⟩) (mat3 (karr m c) ⟨t.val / 4, _⟩) k
  refine congrArg₂ (fun q K => Cert.AttnLaw.attnK q K k) ?_ ?_
  · funext d
    exact qblk_apply m c t ⟨t.val / 4, by omega⟩ rfl ⟨t.val % 4 * 512 + r.val, by omega⟩ 0 r d rfl
  · funext j d
    exact (keys_fill_apply (kblk m c t) j d).trans (kblk_apply m c t ⟨t.val / 4, by omega⟩ rfl 0 j d)

/-- What point `t` writes back of the context is its block of `context3`. -/
theorem flushed_context (c : Dev nD) (t : Fin cfg0.N) :
    (dats m 0 c).flushed 3 t = ((cfg0.win 3).blk t).view.read (Elt Ideal) (context3 m c) := by
  show (cfg0.win 3).cut (grid0.coords t) ((dats m 0 c).after 3 t) = _
  rw [after0_3, (leaves m c t).1]
  have hN : cfg0.N = 128 := N_0
  have ht : t.val < 128 := lt_of_lt_of_eq t.isLt hN
  obtain ⟨-, -, -, ⟨e0, e1, e2⟩, -⟩ := idx_facts t
  funext y
  obtain ⟨u, r, d, rfl⟩ : ∃ (u : Fin 1) (r : Fin 512) (d : Fin 64), y = ix3 u r d := ⟨y 0, y 1, y 2, eq_ix3 y⟩
  have hr : r.val < 512 := r.isLt
  have hu : u.val = 0 := by omega
  show k0_pay5 (F := Ideal) (qblk m c t) (k0_pay1 (kblk m c t)) (k0_pay2 (vblk m c t)) (ix3 u r d)
    = context3 m c (((cfg0.win 3).blk t).view.emb (ix3 u r d))
  refine (stored_ctx_apply (qblk m c t) (k0_pay1 (kblk m c t)) (k0_pay2 (vblk m c t)) u r d).trans ?_
  have hemb : ((cfg0.win 3).blk t).view.emb (ix3 u r d)
      = ix3 (⟨t.val / 4, by omega⟩ : Fin 32) (⟨t.val % 4 * 512 + r.val, by omega⟩ : Fin 2048) d := funext fun a => Fin.ext (by
    match a with
    | ⟨0, _⟩ => show win0_3.index t (0 : Fin 3) * 1 + 1 * u.val = t.val / 4; omega
    | ⟨1, _⟩ => show win0_3.index t (1 : Fin 3) * 512 + 1 * r.val = t.val % 4 * 512 + r.val; omega
    | ⟨2, _⟩ => show win0_3.index t (2 : Fin 3) * 64 + 1 * d.val = d.val; omega)
  rw [hemb]
  show _ = Cert.AttnLaw.ctxK (row3 (qarr m c) ⟨t.val / 4, _⟩ ⟨t.val % 4 * 512 + r.val, _⟩) (mat3 (karr m c) ⟨t.val / 4, _⟩)
    (mat3 (varr m c) ⟨t.val / 4, _⟩) d
  have hq : (fun d' => qblk m c t (ix3 (0 : Fin 1) r d')) = row3 (qarr m c) ⟨t.val / 4, by omega⟩ ⟨t.val % 4 * 512 + r.val, by omega⟩ :=
    funext fun d' => qblk_apply m c t ⟨t.val / 4, by omega⟩ rfl ⟨t.val % 4 * 512 + r.val, by omega⟩ 0 r d' rfl
  have hk : (fun j d' => k0_pay1 (F := Ideal) (kblk m c t) (ix2 j d')) = mat3 (karr m c) ⟨t.val / 4, by omega⟩ :=
    funext fun j => funext fun d' => (keys_fill_apply (kblk m c t) j d').trans (kblk_apply m c t ⟨t.val / 4, by omega⟩ rfl 0 j d')
  have hv : (fun j d' => k0_pay2 (F := Ideal) (vblk m c t) (ix2 j d')) = mat3 (varr m c) ⟨t.val / 4, by omega⟩ :=
    funext fun j => funext fun d' => (vals_fill_apply (vblk m c t) j d').trans (vblk_apply m c t ⟨t.val / 4, by omega⟩ rfl 0 j d')
  rw [hq, hk, hv]

/-- Every entry of the weights is in some point's block. -/
theorem cover_weights (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 128 := N_0
  have h0 : (i 0).val < 32 := (i 0).isLt
  have h1 : (i 1).val < 2048 := (i 1).isLt
  have h2 : (i 2).val < 2048 := (i 2).isLt
  obtain ⟨t, htv⟩ : ∃ t : Fin cfg0.N, t.val = (i 0).val * 4 + (i 1).val / 512 := ⟨⟨(i 0).val * 4 + (i 1).val / 512, by omega⟩, rfl⟩
  obtain ⟨-, -, -, -, ⟨e0, e1, e2⟩⟩ := idx_facts t
  refine ⟨t, flush0_4 t, ?_⟩
  show i ∈ ((View.whole main_v3_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Every entry of the context is in some point's block. -/
theorem cover_context (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 128 := N_0
  have h0 : (i 0).val < 32 := (i 0).isLt
  have h1 : (i 1).val < 2048 := (i 1).isLt
  have h2 : (i 2).val < 64 := (i 2).isLt
  obtain ⟨t, htv⟩ : ∃ t : Fin cfg0.N, t.val = (i 0).val * 4 + (i 1).val / 512 := ⟨⟨(i 0).val * 4 + (i 1).val / 512, by omega⟩, rfl⟩
  obtain ⟨-, -, -, ⟨e0, e1, e2⟩, -⟩ := idx_facts t
  refine ⟨t, flush0_3 t, ?_⟩
  show i ∈ ((View.whole main_v3_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- After the run the weights array is `weights3`. -/
theorem final_weights (c : Dev nD) : (dats m 0 c).arrAt 4 cfg0.N = weights3 m c :=
  (dats m 0 c).arrAt_eq_of_cover 4 (weights3 m c) (fun t _ => flushed_weights m c t) (cover_weights c)

/-- After the run the context array is `context3`. -/
theorem final_context (c : Dev nD) : (dats m 0 c).arrAt 3 cfg0.N = context3 m c :=
  (dats m 0 c).arrAt_eq_of_cover 3 (context3 m c) (fun t _ => flushed_context m c t) (cover_context c)

/-! ## Around the region -/

/-- The arguments, as arrays of extended reals. -/
abbrev argQ (c : Dev nD) : Cert.AttnLaw.QKV.Idx → EReal := m ((c : Thread nD τ).loc main_arg0)
abbrev argK (c : Dev nD) : Cert.AttnLaw.QKV.Idx → EReal := m ((c : Thread nD τ).loc main_arg1)
abbrev argV (c : Dev nD) : Cert.AttnLaw.QKV.Idx → EReal := m ((c : Thread nD τ).loc main_arg2)

/-- Batch `b`, head `h` merged: batch-head `8 b + h`. -/
abbrev merged (b : Fin 4) (h : Fin 8) : Fin 32 := ⟨b.val * 8 + h.val, by omega⟩

/-- A `[4, 8, 2048, 64]` array re-laid as `[32, 2048, 64]` reads `(8 b + h, i, d)` at `(b, h, i, d)`. -/
theorem merge_apply (x : S4x8x2048x64.Idx → EReal) (b : Fin 4) (h : Fin 8) (i : Fin 2048) (d : Fin 64) :
    shapeCast S32x2048x64 x shapeCasts_S4x8x2048x64_S32x2048x64 (ix3 (merged b h) i d) = x (ix4 b h i d) :=
  shapeCast_apply x shapeCasts_S4x8x2048x64_S32x2048x64 (ix3 (merged b h) i d) (ix4 b h i d) (by
    rw [Shape.rowMajor_val_four, Shape.rowMajor_val_three]
    show ((b.val * 8 + h.val) * 2048 + i.val) * 64 + d.val = ((b.val * 8 + h.val) * 2048 + i.val) * 64 + d.val
    rfl)

/-- A `[32, 2048, n]` array re-laid as `[4, 8, 2048, n]` reads `(b, h, i, j)` at `(8 b + h, i, j)`. -/
theorem split_apply {n : ℕ} (x : (⟨3, ![32, 2048, n]⟩ : Shape).Idx → EReal)
    (hc : (⟨3, ![32, 2048, n]⟩ : Shape).ShapeCasts ⟨4, ![4, 8, 2048, n]⟩) (b : Fin 4) (h : Fin 8) (i : Fin 2048) (j : Fin n) :
    shapeCast ⟨4, ![4, 8, 2048, n]⟩ x hc (ix4 b h i j) = x (ix3 (merged b h) i j) :=
  shapeCast_apply x hc (ix4 b h i j) (ix3 (merged b h) i j) (by
    rw [Shape.rowMajor_val_four, Shape.rowMajor_val_three]
    show ((b.val * 8 + h.val) * 2048 + i.val) * n + j.val = ((b.val * 8 + h.val) * 2048 + i.val) * n + j.val
    rfl)

/-- The region finds the queries re-laid. -/
theorem qarr_eq (c : Dev nD) : qarr m c = shapeCast S32x2048x64 (argQ m c) shapeCasts_S4x8x2048x64_S32x2048x64 := by
  show StableHlo.after hostOps0 (fun b => m (c, b)) (Proc.devRef .tc main_v0) = _
  after_results
  rfl
/-- The keys. -/
theorem karr_eq (c : Dev nD) : karr m c = shapeCast S32x2048x64 (argK m c) shapeCasts_S4x8x2048x64_S32x2048x64 := by
  show StableHlo.after hostOps0 (fun b => m (c, b)) (Proc.devRef .tc main_v1) = _
  after_results
  rfl
/-- The values. -/
theorem varr_eq (c : Dev nD) : varr m c = shapeCast S32x2048x64 (argV m c) shapeCasts_S4x8x2048x64_S32x2048x64 := by
  show StableHlo.after hostOps0 (fun b => m (c, b)) (Proc.devRef .tc main_v2) = _
  after_results
  rfl

/-- Query row `i` of batch-head `8 b + h` inside the region is query row `(b, h, i)` of the argument. -/
theorem row3_q (c : Dev nD) (b : Fin 4) (h : Fin 8) (i : Fin 2048) : row3 (qarr m c) (merged b h) i = rowOf (argQ m c) b h i :=
  funext fun d => by rw [qarr_eq]; exact merge_apply _ b h i d
/-- The keys of batch-head `8 b + h` inside the region are those of `(b, h)` of the argument. -/
theorem mat3_k (c : Dev nD) (b : Fin 4) (h : Fin 8) : mat3 (karr m c) (merged b h) = matOf (argK m c) b h :=
  funext fun j => funext fun d => by rw [karr_eq]; exact merge_apply _ b h j d
/-- The values. -/
theorem mat3_v (c : Dev nD) (b : Fin 4) (h : Fin 8) : mat3 (varr m c) (merged b h) = matOf (argV m c) b h :=
  funext fun j => funext fun d => by rw [varr_eq]; exact merge_apply _ b h j d

/-- The weights result: the weights array re-laid back, which is the weights of the arguments. -/
theorem result_weights (c : Dev nD) :
    Pipeline.afterTail₀ cfgs (dats m) 0 (V0 m) [hostOps1] c main_v5 = Cert.AttnLaw.attn4K (argQ m c) (argK m c) := by
  unfold Pipeline.afterTail₀
  show StableHlo.after hostOps1 _ (Proc.devRef .tc main_v5) = _
  after_results
  rw [(Pipeline.withArrays_arr spec0 launch0.win.arr_inj c _ _ 4).trans (final_weights m c)]
  funext y
  obtain ⟨b, h, i, j, rfl⟩ : ∃ (b : Fin 4) (h : Fin 8) (i j : Fin 2048), y = ix4 b h i j := ⟨y 0, y 1, y 2, y 3, eq_ix4 y⟩
  refine (split_apply (weights3 m c) shapeCasts_S32x2048x2048_S4x8x2048x2048 b h i j).trans ?_
  rw [Cert.AttnLaw.attn4K_apply]
  show Cert.AttnLaw.attnK (row3 (qarr m c) (merged b h) i) (mat3 (karr m c) (merged b h)) j = _
  rw [row3_q, mat3_k]

/-- The context result: the context array re-laid back, which is the context of the arguments. -/
theorem result_context (c : Dev nD) :
    Pipeline.afterTail₀ cfgs (dats m) 0 (V0 m) [hostOps1] c main_v4
      = Cert.AttnLaw.ctx4K (argQ m c) (argK m c) (argV m c) := by
  unfold Pipeline.afterTail₀
  show StableHlo.after hostOps1 _ (Proc.devRef .tc main_v4) = _
  after_results
  rw [(Pipeline.withArrays_arr spec0 launch0.win.arr_inj c _ _ 3).trans (final_context m c)]
  funext y
  obtain ⟨b, h, i, d, rfl⟩ : ∃ (b : Fin 4) (h : Fin 8) (i : Fin 2048) (d : Fin 64), y = ix4 b h i d := ⟨y 0, y 1, y 2, y 3, eq_ix4 y⟩
  refine (split_apply (context3 m c) shapeCasts_S32x2048x64_S4x8x2048x64 b h i d).trans ?_
  rw [Cert.AttnLaw.ctx4K_apply]
  show Cert.AttnLaw.ctxK (row3 (qarr m c) (merged b h) i) (mat3 (karr m c) (merged b h)) (mat3 (varr m c) (merged b h)) d = _
  rw [row3_q, mat3_k, mat3_v]

/-! ## The run, read -/

/-- Every weakly fair execution terminates with the context result at the context of the arguments, the weights
    result at their weights, and the arguments unchanged. -/
theorem run : θ_run defs (onTc (τ := τ) (main (F := Ideal))) ⟨m, fun _ => 0, ρ⟩ fun r => ∀ c : Dev nD,
      r.2.mem ((c.tc : Thread nD τ).loc main_v4) = Cert.AttnLaw.ctx4K (argQ m c) (argK m c) (argV m c)
      ∧ r.2.mem ((c.tc : Thread nD τ).loc main_v5) = Cert.AttnLaw.attn4K (argQ m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_context m c),
      ((h c).2 main_v5 (Pipeline.mem_restRefs_of main_v5 (by decide) (by decide))).trans (result_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.AttnValue

end
-- ==== Proof.RefValue.lean ====
/-
  The reference, stage by stage, is the row attention written the reference's way.

  The reference takes the scores `(∑_d Q i d · K j d) · c` over the whole `[4, 8, 2048, 2048]` array, the row maximum
  (a reduction by `max` from `-∞`, joined once more with `-∞`), the exponential of the shifted scores, the row sum
  from zero, the quotient, and the product of the weights with the values.  Read at an index `(b, h, i, j)`, each
  stage is the corresponding function of query row `(b, h, i)` and of the keys and values of batch-head `(b, h)`.
-/
import proofs.«404337_j90967407329826_3_alg».proof.Proof.Gen.ReferenceIdeal.Read
import proofs.«404337_j90967407329826_3_alg».proof.Proof.AttnLaw
import Idealize.ShloMosaic.Lib.ValueIdx
import Idealize.ShloMosaic.PureOps.Reduce

noncomputable section

namespace Cert.ReferenceIdeal.AttnRef

open Cert.ReferenceIdeal Cert.ReferenceIdeal.Gen Cert.ReferenceIdeal.Read Idealize.ShloMosaic Idealize.ShloMosaic.ValueIdx

/-- A `[4, 8, 2048, 64]` array of extended reals. -/
abbrev A4 : Type := (⟨S4x8x2048x64, .f32⟩ : BufTy).Contents (Elt Ideal)

open Cert.AttnLaw (rowOf matOf)

/-- The scaled scores. -/
theorem scores_ref (x0 x1 : A4) (b : Fin 4) (h : Fin 8) (i j : Fin 2048) :
    val_main_v2 (F := Ideal) x0 x1 (ix4 b h i j) = Cert.AttnLaw.scoreR (rowOf x0 b h i) (matOf x1 b h) j := by
  rw [val_main_v2_apply, val_main_v0_apply, val_main_v1_apply, val_main_cst_apply]
  unfold Cert.AttnLaw.scoreR
  have el : ∀ k, lidx_main_v0 (ix4 b h i j) k = ix4 b h i k := fun k => funext fun a => Fin.ext (by match a with | ⟨0, _⟩ => rfl | ⟨1, _⟩ => rfl | ⟨2, _⟩ => rfl | ⟨3, _⟩ => rfl)
  have er : ∀ k, ridx_main_v0 (ix4 b h i j) k = ix4 b h j k := fun k => funext fun a => Fin.ext (by match a with | ⟨0, _⟩ => rfl | ⟨1, _⟩ => rfl | ⟨2, _⟩ => rfl | ⟨3, _⟩ => rfl)
  simp only [el, er]
  rfl

/-- The row maximum. -/
theorem rowmax_ref (x0 x1 : A4) (b : Fin 4) (h : Fin 8) (i : Fin 2048) :
    val_main_v5 (F := Ideal) x0 x1 (ix3 b h i) = Cert.AttnLaw.rowMaxR (rowOf x0 b h i) (matOf x1 b h) := by
  rw [val_main_v5_apply, val_main_v4_apply, val_main_cst_1_apply]
  unfold val_main_v3 Cert.AttnLaw.rowMaxR
  have hred : S4x8x2048x2048.Reduces [3] S4x8x2048 := by decide
  have hl : ∀ j' : Fin 2048, (val_main_v2 (F := Ideal) x0 x1 : S4x8x2048x2048.Idx → Ideal .f32) (hred.lift (ix3 b h i) j')
      = Cert.AttnLaw.scoreR (rowOf x0 b h i) (matOf x1 b h) j' := fun j' => by
    rw [show hred.lift (ix3 b h i) j' = ix4 b h i j' from funext fun a => Fin.ext (by match a with | ⟨0, _⟩ => rfl | ⟨1, _⟩ => rfl | ⟨2, _⟩ => rfl | ⟨3, _⟩ => rfl)]
    exact scores_ref x0 x1 b h i j'
  refine congrArg (max (Ideal.ofBits .f32 0xFF800000#32)) ?_
  refine (Host.reduce_eq_fold_single (α := Ideal .f32) FloatOps.maximumf
    (val_main_v2 (F := Ideal) x0 x1 : S4x8x2048x2048.Idx → Ideal .f32) (val_main_cst_0 (F := Ideal) : S_.Idx → Ideal .f32)
    reducesTo_S4x8x2048x2048_S4x8x2048_d3 hred h_S_ (ix3 b h i)).trans ?_
  exact Finset.fold_congr (fun j' _ => hl j')

/-- The shifted exponentials. -/
theorem exp_ref (x0 x1 : A4) (b : Fin 4) (h : Fin 8) (i j : Fin 2048) :
    val_main_v9 (F := Ideal) x0 x1 (ix4 b h i j) = Cert.AttnLaw.expR (rowOf x0 b h i) (matOf x1 b h) j := by
  rw [val_main_v9_apply, val_main_v8_apply, val_main_v7_apply, val_main_v6_apply]
  unfold Cert.AttnLaw.expR
  rw [show idx_main_v6 (idx_main_v7 (ix4 b h i j)) = ix3 b h i from funext fun a => Fin.ext (by match a with | ⟨0, _⟩ => rfl | ⟨1, _⟩ => rfl | ⟨2, _⟩ => rfl), rowmax_ref, scores_ref]
  rfl

/-- The weights. -/
theorem attn_ref (x0 x1 : A4) (b : Fin 4) (h : Fin 8) (i j : Fin 2048) :
    val_main_v13 (F := Ideal) x0 x1 (ix4 b h i j) = Cert.AttnLaw.attnR (rowOf x0 b h i) (matOf x1 b h) j := by
  rw [val_main_v13_apply, val_main_v12_apply, val_main_v11_apply, val_main_v10_apply, val_main_cst_2_apply]
  unfold Cert.AttnLaw.attnR
  rw [show idx_main_v11 (idx_main_v12 (ix4 b h i j)) = ix3 b h i from funext fun a => Fin.ext (by match a with | ⟨0, _⟩ => rfl | ⟨1, _⟩ => rfl | ⟨2, _⟩ => rfl), exp_ref]
  have e : ∀ k, idx_main_v10 (ix3 b h i) k = ix4 b h i k := fun k => funext fun a => Fin.ext (by match a with | ⟨0, _⟩ => rfl | ⟨1, _⟩ => rfl | ⟨2, _⟩ => rfl | ⟨3, _⟩ => rfl)
  simp only [e, exp_ref]
  rfl

/-- The context. -/
theorem ctx_ref (x0 x1 x2 : A4) (b : Fin 4) (h : Fin 8) (i : Fin 2048) (d : Fin 64) :
    val_main_v14 (F := Ideal) x0 x1 x2 (ix4 b h i d)
      = Cert.AttnLaw.ctxR (rowOf x0 b h i) (matOf x1 b h) (matOf x2 b h) d := by
  rw [val_main_v14_apply]
  unfold Cert.AttnLaw.ctxR
  refine Finset.sum_congr rfl fun k _ => ?_
  rw [show lidx_main_v14 (ix4 b h i d) k = ix4 b h i k from funext fun a => Fin.ext (by match a with | ⟨0, _⟩ => rfl | ⟨1, _⟩ => rfl | ⟨2, _⟩ => rfl | ⟨3, _⟩ => rfl),
    show ridx_main_v14 (ix4 b h i d) k = ix4 b h k d from funext fun a => Fin.ext (by match a with | ⟨0, _⟩ => rfl | ⟨1, _⟩ => rfl | ⟨2, _⟩ => rfl | ⟨3, _⟩ => rfl), attn_ref]

/-- The reference's weights, as a whole array. -/
theorem attn_ref_eq (x0 x1 : A4) : val_main_v13 (F := Ideal) x0 x1 = Cert.AttnLaw.attn4R x0 x1 := funext fun y => by
  obtain ⟨b, h, i, j, rfl⟩ : ∃ (b : Fin 4) (h : Fin 8) (i j : Fin 2048), y = ix4 b h i j := ⟨y 0, y 1, y 2, y 3, eq_ix4 y⟩
  exact attn_ref x0 x1 b h i j

/-- The reference's context, as a whole array. -/
theorem ctx_ref_eq (x0 x1 x2 : A4) : val_main_v14 (F := Ideal) x0 x1 x2 = Cert.AttnLaw.ctx4R x0 x1 x2 := funext fun y => by
  obtain ⟨b, h, i, d, rfl⟩ : ∃ (b : Fin 4) (h : Fin 8) (i : Fin 2048) (d : Fin 64), y = ix4 b h i d := ⟨y 0, y 1, y 2, y 3, eq_ix4 y⟩
  exact ctx_ref x0 x1 x2 b h i d

end Cert.ReferenceIdeal.AttnRef

end
-- ==== Proof.Finite.lean ====
/-
  What the precondition gives: every entry of the three float inputs is a real number.

  The precondition is `all (|Q| < +∞) ∧ all (|K| < +∞) ∧ all (|V| < +∞)`, each `all` a reduction by `and` from
  `true` over every axis.  A conjunction of bits that is 1 has both bits 1; a reduction by `and` that is 1 met only
  1s; and an extended real whose absolute value `max x (-x)` is below `+∞` is neither infinity, so it is a real.
-/
import proofs.«404337_j90967407329826_3_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- An extended real whose absolute value compares below the word of `+∞` is a real. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- The precondition, read: all three float inputs are finite everywhere. -/
theorem finite_of_pre [Facts] (a0 a1 a2 : FVec Ideal S4x8x2048x64 .f32) (a3 : IVec S2048x2048 1)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  simp only [andi] at h0
  rw [IntOp.andi_eq_one, IntOp.andi_eq_one] at h0
  obtain ⟨⟨h3, h7⟩, h12⟩ := h0
  exact ⟨fun i => real_of_abs_lt (a0 i) (Host.reduce_andi_all _ _ _ _ _ h3 i),
    fun i => real_of_abs_lt (a1 i) (Host.reduce_andi_all _ _ _ _ _ h7 i),
    fun i => real_of_abs_lt (a2 i) (Host.reduce_andi_all _ _ _ _ _ h12 i)⟩

end Cert.Pre_finite_inputs.Finite

end
-- ==== Proof.lean ====
/-
  Scaled dot-product attention, a tiled kernel against the textbook formula.

  The kernel runs over a grid of (batch-head, query tile).  At the first tile of a batch-head it copies that
  batch-head's keys and values into scratch; at every tile it computes, for its 512 query rows,
  `exp (score) · (1 / ∑ exp (score))` with `score = ∑_d (q_d · 1/8) · k_d` — no maximum is subtracted — and the
  context of those weights against the values.  The reference computes `softmax ((Q Kᵀ) · 1/8)` the usual way (row
  maximum subtracted, quotient by the row sum) and its product with `V`.

  Over the extended reals the two agree exactly when the queries and keys are finite: the scale `1/8` moves
  across a finite sum of reals, the row maximum of reals is a real, a softmax does not depend on the real it is
  shifted by, and multiplying by the reciprocal of a nonzero real is dividing by it.  The precondition says every
  float input is finite.  The context is then the same sum of the same products, whatever the values.

  The pieces:
    * the row law and the two attentions as whole arrays of the arguments;
    * the kernel's two results as those arrays (what each grid point leaves in its outputs, by induction on the
      point for the scratch carried between tiles; the 128 blocks tile the outputs; the host only re-lays
      `[4, 8, 2048, ·]` as `[32, 2048, ·]` and back);
    * the reference's two results as those arrays, stage by stage;
    * finiteness of the inputs from the precondition.
  The three frames are the programs' runs; the idealization rewrote nothing.
-/
import proofs.«404337_j90967407329826_3_alg».proof.Defs
import proofs.«404337_j90967407329826_3_alg».proof.Proof.Gen.Kernel
import proofs.«404337_j90967407329826_3_alg».proof.Proof.Gen.Kernel.Skeleton
import proofs.«404337_j90967407329826_3_alg».proof.Proof.Gen.Kernel.Launch
import proofs.«404337_j90967407329826_3_alg».proof.Proof.Gen.Kernel.Points
import proofs.«404337_j90967407329826_3_alg».proof.Proof.Gen.Kernel.Frame
import proofs.«404337_j90967407329826_3_alg».proof.Proof.Gen.KernelIdeal
import proofs.«404337_j90967407329826_3_alg».proof.Proof.Gen.KernelIdeal.Skeleton
import proofs.«404337_j90967407329826_3_alg».proof.Proof.Gen.KernelIdeal.Launch
import proofs.«404337_j90967407329826_3_alg».proof.Proof.Gen.KernelIdeal.Points
import proofs.«404337_j90967407329826_3_alg».proof.Proof.Gen.KernelIdeal.Frame
import proofs.«404337_j90967407329826_3_alg».proof.Proof.Gen.ReferenceIdeal
import proofs.«404337_j90967407329826_3_alg».proof.Proof.Gen.ReferenceIdeal.Run
import proofs.«404337_j90967407329826_3_alg».proof.Proof.Gen.ReferenceIdeal.Read
import proofs.«404337_j90967407329826_3_alg».proof.Proof.Gen.Pre_finite_inputs
import proofs.«404337_j90967407329826_3_alg».proof.Proof.Final
import proofs.«404337_j90967407329826_3_alg».proof.Proof.RefValue
import proofs.«404337_j90967407329826_3_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- On finite inputs the kernel's context and weights are the reference's: both runs end with the context and the
    weights arrays of their arguments, written the kernel's way and the reference's way; the arguments agree, and on
    finite queries and keys the two ways are one (`ctx4_eq`, `attn4_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.AttnLaw.ctx4K (Cert.KernelIdeal.AttnValue.argQ m c) (Cert.KernelIdeal.AttnValue.argK m c) (Cert.KernelIdeal.AttnValue.argV m c),
    fun c => Cert.AttnLaw.attn4K (Cert.KernelIdeal.AttnValue.argQ m c) (Cert.KernelIdeal.AttnValue.argK m c),
    Cert.KernelIdeal.AttnValue.run m ρ, ?_⟩
  refine (θ_run Cert.ReferenceIdeal.defs _ _).mono (fun _ h c => ?_) (Cert.ReferenceIdeal.Value.run (F := Ideal) m' ρ')
  obtain ⟨hQ, hK, -⟩ := Cert.Pre_finite_inputs.Finite.finite_of_pre _ _ _ _ (hpre c)
  refine ⟨(h c).1.trans ?_, (h c).2.1.trans ?_, (h c).2.2⟩
  · rw [Cert.ReferenceIdeal.Read.val_main_v14_eq, Cert.ReferenceIdeal.AttnRef.ctx_ref_eq, (hagree c).1, (hagree c).2.1, (hagree c).2.2.1]
    exact (Cert.AttnLaw.ctx4_eq _ _ _ hQ hK).symm
  · rw [Cert.ReferenceIdeal.Read.val_main_v13_eq, Cert.ReferenceIdeal.AttnRef.attn_ref_eq, (hagree c).1, (hagree c).2.1]
    exact (Cert.AttnLaw.attn4_eq _ _ hQ hK).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
